-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x40 : Shape := ⟨2, ![4096, 40]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x40 : S_.BroadcastsInDim S4096x40 (![] : Fin 0 → Fin S4096x40.rank)
  reducesTo_S4096x40_S_d0_1 : S4096x40.ReducesTo [0, 1] S_
  reducesTo_S_S_d : S_.ReducesTo [] S_

variable [Facts]

def fn_part1 {F : FTy → Type} [FloatOps F] (main_arg4 : FVec F S_ .f32) (main_v13 : IVec S_ 1) (main_v16 : IVec S4096x40 1) : IVec S_ 1 :=
  let main_c_5 : IVec S_ 1 := constantI S_ 1 1#1
  let main_v17 : IVec S_ 1 := (fun x v => Host.reduce IntOp.andi x v reducesTo_S4096x40_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S16384x4096 .f32) (main_arg1 : FVec F S4096x40 .f32) (main_arg2 : FVec F S4096x40 .f32) (main_arg3 : FVec F S4096x40 .f32) (main_arg4 : FVec F S_ .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x40 .f32 := Host.absf main_arg1
  let main_cst_0 : FVec F S_ .f32 := constant S_ .f32 0x7F800000#32
  let main_v5 : FVec F S4096x40 .f32 := broadcastInDim S4096x40 ![] bcast_S_S4096x40 main_cst_0
  let main_v6 : IVec S4096x40 1 := cmpf .olt main_v4 main_v5
  let main_c_1 : IVec S_ 1 := constantI S_ 1 1#1
  let main_v7 : IVec S_ 1 := (fun x v => Host.reduce IntOp.andi x v reducesTo_S4096x40_S_d0_1 h_S_) main_v6 main_c_1
  let main_v8 : IVec S_ 1 := andi main_v3 main_v7
  let main_v9 : FVec F S4096x40 .f32 := Host.absf main_arg2
  let main_cst_2 : FVec F S_ .f32 := constant S_ .f32 0x7F800000#32
  let main_v10 : FVec F S4096x40 .f32 := broadcastInDim S4096x40 ![] bcast_S_S4096x40 main_cst_2
  let main_v11 : IVec S4096x40 1 := cmpf .olt main_v9 main_v10
  let main_c_3 : IVec S_ 1 := constantI S_ 1 1#1
  let main_v12 : IVec S_ 1 := (fun x v => Host.reduce IntOp.andi x v reducesTo_S4096x40_S_d0_1 h_S_) main_v11 main_c_3
  let main_v13 : IVec S_ 1 := andi main_v8 main_v12
  let main_v14 : FVec F S4096x40 .f32 := Host.absf main_arg3
  let main_cst_4 : FVec F S_ .f32 := constant S_ .f32 0x7F800000#32
  let main_v15 : FVec F S4096x40 .f32 := broadcastInDim S4096x40 ![] bcast_S_S4096x40 main_cst_4
  let main_v16 : IVec S4096x40 1 := cmpf .olt main_v14 main_v15
  fn_part1 (F := F) main_arg4 main_v13 main_v16
-- ==== Kernel.lean ====
abbrev S16384x4096 : Shape := ⟨2, ![16384, 4096]⟩
abbrev S4096x40 : Shape := ⟨2, ![4096, 40]⟩
abbrev S_ : Shape := ⟨0, ![]⟩
abbrev S40 : Shape := ⟨1, ![40]⟩
abbrev S1x40 : Shape := ⟨2, ![1, 40]⟩
abbrev S16384x40 : Shape := ⟨2, ![16384, 40]⟩
abbrev S512x4096 : Shape := ⟨2, ![512, 4096]⟩
abbrev S512x40 : Shape := ⟨2, ![512, 40]⟩
abbrev S16384x4x10 : Shape := ⟨3, ![16384, 4, 10]⟩
abbrev S16384x4 : Shape := ⟨2, ![16384, 4]⟩

abbrev nBuf : Space → Nat
  | .hbm => 88
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x40, .f32⟩
  | .hbm, ⟨2, _⟩ => ⟨S4096x40, .f32⟩
  | .hbm, ⟨3, _⟩ => ⟨S4096x40, .f32⟩
  | .hbm, ⟨4, _⟩ => ⟨S_, .f32⟩
  | .hbm, ⟨5, _⟩ => ⟨S_, .f32⟩
  | .hbm, ⟨6, _⟩ => ⟨S4096x40, .f32⟩
  | .hbm, ⟨7, _⟩ => ⟨S4096x40, .f32⟩
  | .hbm, ⟨8, _⟩ => ⟨S4096x40, .f32⟩
  | .hbm, ⟨9, _⟩ => ⟨S_, .f32⟩
  | .hbm, ⟨10, _⟩ => ⟨S4096x40, .f32⟩
  | .hbm, ⟨11, _⟩ => ⟨S4096x40, .f32⟩
  | .hbm, ⟨12, _⟩ => ⟨S_, .f32⟩
  | .hbm, ⟨13, _⟩ => ⟨S4096x40, .f32⟩
  | .hbm, ⟨14, _⟩ => ⟨S4096x40, .f32⟩
  | .hbm, ⟨15, _⟩ => ⟨S4096x40, .f32⟩
  | .hbm, ⟨16, _⟩ => ⟨S4096x40, .f32⟩
  | .hbm, ⟨17, _⟩ => ⟨S4096x40, .f32⟩
  | .hbm, ⟨18, _⟩ => ⟨S_, .f32⟩
  | .hbm, ⟨19, _⟩ => ⟨S_, .f32⟩
  | .hbm, ⟨20, _⟩ => ⟨S4096x40, .f32⟩
  | .hbm, ⟨21, _⟩ => ⟨S4096x40, .f32⟩
  | .hbm, ⟨22, _⟩ => ⟨S4096x40, .f32⟩
  | .hbm, ⟨23, _⟩ => ⟨S4096x40, .f32⟩
  | .hbm, ⟨24, _⟩ => ⟨S_, .f32⟩
  | .hbm, ⟨25, _⟩ => ⟨S4096x40, .f32⟩
  | .hbm, ⟨26, _⟩ => ⟨S4096x40, .f32⟩
  | .hbm, ⟨27, _⟩ => ⟨S_, .f32⟩
  | .hbm, ⟨28, _⟩ => ⟨S4096x40, .f32⟩
  | .hbm, ⟨29, _⟩ => ⟨S4096x40, .f32⟩
  | .hbm, ⟨30, _⟩ => ⟨S_, .f32⟩
  | .hbm, ⟨31, _⟩ => ⟨S_, .f32⟩
  | .hbm, ⟨32, _⟩ => ⟨S4096x40, .f32⟩
  | .hbm, ⟨33, _⟩ => ⟨S4096x40, .f32⟩
  | .hbm, ⟨34, _⟩ => ⟨S4096x40, .f32⟩
  | .hbm, ⟨35, _⟩ => ⟨S4096x40, .f32⟩
  | .hbm, ⟨36, _⟩ => ⟨S4096x40, .f32⟩
  | .hbm, ⟨37, _⟩ => ⟨S_, .f32⟩
  | .hbm, ⟨38, _⟩ => ⟨S4096x40, .f32⟩
  | .hbm, ⟨39, _⟩ => ⟨S4096x40, .i1⟩
  | .hbm, ⟨40, _⟩ => ⟨S_, .f32⟩
  | .hbm, ⟨41, _⟩ => ⟨S4096x40, .f32⟩
  | .hbm, ⟨42, _⟩ => ⟨S4096x40, .i1⟩
  | .hbm, ⟨43, _⟩ => ⟨S4096x40, .i1⟩
  | .hbm, ⟨44, _⟩ => ⟨S4096x40, .f32⟩
  | .hbm, ⟨45, _⟩ => ⟨S_, .f32⟩
  | .hbm, ⟨46, _⟩ => ⟨S4096x40, .f32⟩
  | .hbm, ⟨47, _⟩ => ⟨S4096x40, .i1⟩
  | .hbm, ⟨48, _⟩ => ⟨S4096x40, .i1⟩
  | .hbm, ⟨49, _⟩ => ⟨S4096x40, .i1⟩
  | .hbm, ⟨50, _⟩ => ⟨S4096x40, .f32⟩
  | .hbm, ⟨51, _⟩ => ⟨S4096x40, .f32⟩
  | .hbm, ⟨52, _⟩ => ⟨S_, .f32⟩
  | .hbm, ⟨53, _⟩ => ⟨S40, .f32⟩
  | .hbm, ⟨54, _⟩ => ⟨S1x40, .f32⟩
  | .hbm, ⟨55, _⟩ => ⟨S_, .f32⟩
  | .hbm, ⟨56, _⟩ => ⟨S40, .f32⟩
  | .hbm, ⟨57, _⟩ => ⟨S1x40, .f32⟩
  | .hbm, ⟨58, _⟩ => ⟨S_, .f32⟩
  | .hbm, ⟨59, _⟩ => ⟨S40, .f32⟩
  | .hbm, ⟨60, _⟩ => ⟨S1x40, .f32⟩
  | .hbm, ⟨61, _⟩ => ⟨S1x40, .f32⟩
  | .hbm, ⟨62, _⟩ => ⟨S_, .f32⟩
  | .hbm, ⟨63, _⟩ => ⟨S1x40, .f32⟩
  | .hbm, ⟨64, _⟩ => ⟨S1x40, .i1⟩
  | .hbm, ⟨65, _⟩ => ⟨S_, .f32⟩
  | .hbm, ⟨66, _⟩ => ⟨S1x40, .f32⟩
  | .hbm, ⟨67, _⟩ => ⟨S1x40, .f32⟩
  | .hbm, ⟨68, _⟩ => ⟨S_, .f32⟩
  | .hbm, ⟨69, _⟩ => ⟨S1x40, .f32⟩
  | .hbm, ⟨70, _⟩ => ⟨S1x40, .f32⟩
  | .hbm, ⟨71, _⟩ => ⟨S_, .f32⟩
  | .hbm, ⟨72, _⟩ => ⟨S_, .f32⟩
  | .hbm, ⟨73, _⟩ => ⟨S1x40, .f32⟩
  | .hbm, ⟨74, _⟩ => ⟨S1x40, .f32⟩
  | .hbm, ⟨75, _⟩ => ⟨S_, .f32⟩
  | .hbm, ⟨76, _⟩ => ⟨S1x40, .f32⟩
  | .hbm, ⟨77, _⟩ => ⟨S1x40, .i1⟩
  | .hbm, ⟨78, _⟩ => ⟨S_, .f32⟩
  | .hbm, ⟨79, _⟩ => ⟨S_, .f32⟩
  | .hbm, ⟨80, _⟩ => ⟨S1x40, .f32⟩
  | .hbm, ⟨81, _⟩ => ⟨S1x40, .f32⟩
  | .hbm, ⟨82, _⟩ => ⟨S1x40, .f32⟩
  | .hbm, ⟨83, _⟩ => ⟨S4096x40, .bf16⟩
  | .hbm, ⟨84, _⟩ => ⟨S16384x40, .f32⟩
  | .hbm, ⟨85, _⟩ => ⟨S16384x4x10, .f32⟩
  | .hbm, ⟨86, _⟩ => ⟨S_, .f32⟩
  | .hbm, ⟨87, _⟩ => ⟨S16384x4, .f32⟩
  | .local _ .vmem, ⟨0, _⟩ => ⟨S512x4096, .f32⟩
  | .local _ .vmem, ⟨1, _⟩ => ⟨S512x4096, .f32⟩
  | .local _ .vmem, ⟨2, _⟩ => ⟨S4096x40, .bf16⟩
  | .local _ .vmem, ⟨3, _⟩ => ⟨S1x40, .f32⟩
  | .local _ .vmem, ⟨4, _⟩ => ⟨S1x40, .f32⟩
  | .local _ .vmem, ⟨5, _⟩ => ⟨S1x40, .f32⟩
  | .local _ .vmem, ⟨6, _⟩ => ⟨S512x40, .f32⟩
  | .local _ .vmem, ⟨7, _⟩ => ⟨S512x40, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_call0_v0 : Ref sig .tc := ⟨.hbm, 72, rfl⟩
abbrev main_call0_v1 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_cst_18 : Ref sig .tc := ⟨.hbm, 79, rfl⟩
abbrev main_call1_v0 : Ref sig .tc := ⟨.hbm, 80, rfl⟩
abbrev main_call1_v1 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096x40 : S_.BroadcastsInDim S4096x40 (![] : Fin 0 → Fin S4096x40.rank)
  reducesTo_S4096x40_S40_d0 : S4096x40.ReducesTo [0] S40
  h_S_ : 0 < S_.numel
  bcast_S40_S1x40_1 : S40.BroadcastsInDim S1x40 (![1] : Fin 1 → Fin S1x40.rank)
  bcast_S_S1x40 : S_.BroadcastsInDim S1x40 (![] : Fin 0 → Fin S1x40.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x40_S4096x40_0_0 : ∀ a, (![0, 0] : Fin 2 → Nat) a + S4096x40.size a ≤ S4096x40.size a
  h_S4096x40 : 0 < S4096x40.numel
  shapeCasts_S4096x40_S4096x40 : S4096x40.ShapeCasts S4096x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S512x40 : S1x40.Broadcasts S512x40
  inb_S512x40_S512x40_0_0 : ∀ a, (![0, 0] : Fin 2 → Nat) a + S512x40.size a ≤ S512x40.size a
  h_S512x40 : 0 < S512x40.numel
  shapeCasts_S16384x40_S16384x4x10 : S16384x40.ShapeCasts S16384x4x10
  reducesTo_S16384x4x10_S16384x4_d2 : S16384x4x10.ReducesTo [2] S16384x4
  dot_S512x4096_S4096x40_S512x40_1_0_0_1_n_n_wf : DotDims.WF S512x4096 S4096x40 S512x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x40.size a ≤ S4096x40.size a
  hwx0_1 : ∀ i : grid0.Coords, EltTy.bits .bf16 = 32 ∨ (Rect.block (s := S4096x40) S4096x40.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x40.size a ≤ S16384x40.size a
  hwx0_5 : ∀ i : grid0.Coords, EltTy.bits .f32 = 32 ∨ (Rect.block (s := S16384x40) S512x40.size (cc0_transform_5 i) (hinb0_5 i)).WholeWords (EltTy.packing .f32)

variable [Facts₀]

def dot_S512x4096_S4096x40_S512x40_1_0_0_1_n_n : DotDims S512x4096 S4096x40 S512x40 where
  lhsContracting := [1]
  rhsContracting := [0]
  lhsNonContracting := [0]
  rhsNonContracting := [1]
  lhsBatch := []
  rhsBatch := []
  wf := dot_S512x4096_S4096x40_S512x40_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S4096x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S512x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x40 : Shape := ⟨2, ![4096, 40]⟩
abbrev S_ : Shape := ⟨0, ![]⟩
abbrev S16384x40 : Shape := ⟨2, ![16384, 40]⟩
abbrev S40 : Shape := ⟨1, ![40]⟩
abbrev S1x40 : Shape := ⟨2, ![1, 40]⟩
abbrev S16384x4x10 : Shape := ⟨3, ![16384, 4, 10]⟩
abbrev S16384x4 : Shape := ⟨2, ![16384, 4]⟩

abbrev nBuf : Space → Nat
  | .hbm => 79
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x40, .f32⟩
  | .hbm, ⟨2, _⟩ => ⟨S4096x40, .f32⟩
  | .hbm, ⟨3, _⟩ => ⟨S4096x40, .f32⟩
  | .hbm, ⟨4, _⟩ => ⟨S_, .f32⟩
  | .hbm, ⟨5, _⟩ => ⟨S_, .f32⟩
  | .hbm, ⟨6, _⟩ => ⟨S4096x40, .f32⟩
  | .hbm, ⟨7, _⟩ => ⟨S4096x40, .f32⟩
  | .hbm, ⟨8, _⟩ => ⟨S4096x40, .f32⟩
  | .hbm, ⟨9, _⟩ => ⟨S_, .f32⟩
  | .hbm, ⟨10, _⟩ => ⟨S4096x40, .f32⟩
  | .hbm, ⟨11, _⟩ => ⟨S4096x40, .f32⟩
  | .hbm, ⟨12, _⟩ => ⟨S_, .f32⟩
  | .hbm, ⟨13, _⟩ => ⟨S4096x40, .f32⟩
  | .hbm, ⟨14, _⟩ => ⟨S4096x40, .f32⟩
  | .hbm, ⟨15, _⟩ => ⟨S4096x40, .f32⟩
  | .hbm, ⟨16, _⟩ => ⟨S4096x40, .f32⟩
  | .hbm, ⟨17, _⟩ => ⟨S4096x40, .f32⟩
  | .hbm, ⟨18, _⟩ => ⟨S_, .f32⟩
  | .hbm, ⟨19, _⟩ => ⟨S_, .f32⟩
  | .hbm, ⟨20, _⟩ => ⟨S4096x40, .f32⟩
  | .hbm, ⟨21, _⟩ => ⟨S4096x40, .f32⟩
  | .hbm, ⟨22, _⟩ => ⟨S4096x40, .f32⟩
  | .hbm, ⟨23, _⟩ => ⟨S4096x40, .f32⟩
  | .hbm, ⟨24, _⟩ => ⟨S_, .f32⟩
  | .hbm, ⟨25, _⟩ => ⟨S4096x40, .f32⟩
  | .hbm, ⟨26, _⟩ => ⟨S4096x40, .f32⟩
  | .hbm, ⟨27, _⟩ => ⟨S_, .f32⟩
  | .hbm, ⟨28, _⟩ => ⟨S4096x40, .f32⟩
  | .hbm, ⟨29, _⟩ => ⟨S4096x40, .f32⟩
  | .hbm, ⟨30, _⟩ => ⟨S_, .f32⟩
  | .hbm, ⟨31, _⟩ => ⟨S_, .f32⟩
  | .hbm, ⟨32, _⟩ => ⟨S4096x40, .f32⟩
  | .hbm, ⟨33, _⟩ => ⟨S4096x40, .f32⟩
  | .hbm, ⟨34, _⟩ => ⟨S4096x40, .f32⟩
  | .hbm, ⟨35, _⟩ => ⟨S4096x40, .f32⟩
  | .hbm, ⟨36, _⟩ => ⟨S4096x40, .f32⟩
  | .hbm, ⟨37, _⟩ => ⟨S_, .f32⟩
  | .hbm, ⟨38, _⟩ => ⟨S4096x40, .f32⟩
  | .hbm, ⟨39, _⟩ => ⟨S4096x40, .i1⟩
  | .hbm, ⟨40, _⟩ => ⟨S_, .f32⟩
  | .hbm, ⟨41, _⟩ => ⟨S4096x40, .f32⟩
  | .hbm, ⟨42, _⟩ => ⟨S4096x40, .i1⟩
  | .hbm, ⟨43, _⟩ => ⟨S4096x40, .i1⟩
  | .hbm, ⟨44, _⟩ => ⟨S4096x40, .f32⟩
  | .hbm, ⟨45, _⟩ => ⟨S_, .f32⟩
  | .hbm, ⟨46, _⟩ => ⟨S4096x40, .f32⟩
  | .hbm, ⟨47, _⟩ => ⟨S4096x40, .i1⟩
  | .hbm, ⟨48, _⟩ => ⟨S4096x40, .i1⟩
  | .hbm, ⟨49, _⟩ => ⟨S4096x40, .i1⟩
  | .hbm, ⟨50, _⟩ => ⟨S4096x40, .f32⟩
  | .hbm, ⟨51, _⟩ => ⟨S16384x40, .f32⟩
  | .hbm, ⟨52, _⟩ => ⟨S_, .f32⟩
  | .hbm, ⟨53, _⟩ => ⟨S16384x4096, .f32⟩
  | .hbm, ⟨54, _⟩ => ⟨S16384x4096, .f32⟩
  | .hbm, ⟨55, _⟩ => ⟨S16384x40, .f32⟩
  | .hbm, ⟨56, _⟩ => ⟨S16384x40, .f32⟩
  | .hbm, ⟨57, _⟩ => ⟨S_, .f32⟩
  | .hbm, ⟨58, _⟩ => ⟨S40, .f32⟩
  | .hbm, ⟨59, _⟩ => ⟨S_, .f32⟩
  | .hbm, ⟨60, _⟩ => ⟨S40, .f32⟩
  | .hbm, ⟨61, _⟩ => ⟨S40, .f32⟩
  | .hbm, ⟨62, _⟩ => ⟨S_, .f32⟩
  | .hbm, ⟨63, _⟩ => ⟨S40, .f32⟩
  | .hbm, ⟨64, _⟩ => ⟨S40, .i1⟩
  | .hbm, ⟨65, _⟩ => ⟨S_, .f32⟩
  | .hbm, ⟨66, _⟩ => ⟨S40, .f32⟩
  | .hbm, ⟨67, _⟩ => ⟨S40, .f32⟩
  | .hbm, ⟨68, _⟩ => ⟨S1x40, .f32⟩
  | .hbm, ⟨69, _⟩ => ⟨S16384x40, .f32⟩
  | .hbm, ⟨70, _⟩ => ⟨S16384x40, .f32⟩
  | .hbm, ⟨71, _⟩ => ⟨S_, .f32⟩
  | .hbm, ⟨72, _⟩ => ⟨S_, .f32⟩
  | .hbm, ⟨73, _⟩ => ⟨S16384x40, .i1⟩
  | .hbm, ⟨74, _⟩ => ⟨S16384x40, .f32⟩
  | .hbm, ⟨75, _⟩ => ⟨S16384x40, .f32⟩
  | .hbm, ⟨76, _⟩ => ⟨S16384x4x10, .f32⟩
  | .hbm, ⟨77, _⟩ => ⟨S_, .f32⟩
  | .hbm, ⟨78, _⟩ => ⟨S16384x4, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S_S4096x40 : S_.BroadcastsInDim S4096x40 (![] : Fin 0 → Fin S4096x40.rank)
  bcast_S_S16384x4096 : S_.BroadcastsInDim S16384x4096 (![] : Fin 0 → Fin S16384x4096.rank)
  reducesTo_S4096x40_S40_d0 : S4096x40.ReducesTo [0] S40
  h_S_ : 0 < S_.numel
  bcast_S_S40 : S_.BroadcastsInDim S40 (![] : Fin 0 → Fin S40.rank)
  bcast_S40_S1x40_1 : S40.BroadcastsInDim S1x40 (![1] : Fin 1 → Fin S1x40.rank)
  bcast_S1x40_S16384x40_0_1 : S1x40.BroadcastsInDim S16384x40 (![0, 1] : Fin 2 → Fin S16384x40.rank)
  bcast_S40_S16384x40_1 : S40.BroadcastsInDim S16384x40 (![1] : Fin 1 → Fin S16384x40.rank)
  bcast_S_S16384x40 : S_.BroadcastsInDim S16384x40 (![] : Fin 0 → Fin S16384x40.rank)
  shapeCasts_S16384x40_S16384x4x10 : S16384x40.ShapeCasts S16384x4x10
  reducesTo_S16384x4x10_S16384x4_d2 : S16384x4x10.ReducesTo [2] S16384x4
  dot_S16384x4096_S4096x40_S16384x40_1_0_0_1_n_n_wf : DotDims.WF S16384x4096 S4096x40 S16384x40 [1] [0] [0] [1] [] []

variable [Facts₀]

def dot_S16384x4096_S4096x40_S16384x40_1_0_0_1_n_n : DotDims S16384x4096 S4096x40 S16384x40 where
  lhsContracting := [1]
  rhsContracting := [0]
  lhsNonContracting := [0]
  rhsNonContracting := [1]
  lhsBatch := []
  rhsBatch := []
  wf := dot_S16384x4096_S4096x40_S16384x40_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KernelArray.lean ====
/-
  The idealized kernel's output array.  Grid point t works on rows 512·t … 512·t + 511 of the features: it multiplies
  that 512×4096 block by the whole 4096×40 combined-weight matrix, adds the bias row, scales by the inverse-count row and
  adds the default row, and writes the 512×40 result back as block t of the output.  The 32 blocks tile the 16384×40
  output, so after the run entry (b, c) of the output is

      (Σ_f X(b, f) · D(f, c) + bias(0, c)) · inv(0, c) + dflt(0, c)

  of the five arrays as the region finds them.
-/
import proofs.«107121_j39290360823856_1_alg».proof.Proof.Gen.KernelIdeal.Frame
import proofs.«107121_j39290360823856_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SatArray

open Cert.KernelIdeal Cert.KernelIdeal.Gen Idealize.ShloMosaic Idealize.ShloMosaic.TcCoe Idealize.SL.Sem
open Idealize.ShloMosaic.ValueIdx Idealize.ShloMosaic.Pipeline

/-- Clause satisfactions from the features X, the combined weights D and the three rows: entry (b, c). -/
def satOf (X : FVec Ideal S16384x4096 .f32) (D : FVec Ideal S4096x40 .bf16) (B I Dc : FVec Ideal S1x40 .f32) :
    FVec Ideal S16384x40 .f32 :=
  fun i => ((∑ f : Fin 4096, X (ix2 (i 0) f) * D (ix2 f (i 1))) + B (ix2 (0 : Fin 1) (i 1))) * I (ix2 (0 : Fin 1) (i 1))
    + Dc (ix2 (0 : Fin 1) (i 1))

/-- The printed contraction record is the plain one: rows by columns. -/
theorem dot_eq_plain : dot_S512x4096_S4096x40_S512x40_1_0_0_1_n_n = DotDims.plain 512 4096 40 := rfl

/-- The body's stored value at row p, clause q of the block: the product row, plus bias, times inverse count, plus default. -/
theorem pay_apply (x0 : Vec Ideal S512x4096 .f32) (x1 : Vec Ideal S4096x40 .bf16) (x2 x3 x4 : Vec Ideal S1x40 .f32)
    (p : Fin 512) (q : Fin 40) :
    k0_pay1 (F := Ideal) x0 x1 x2 x3 x4 (ix2 p q)
      = ((∑ f : Fin 4096, x0 (ix2 p f) * x1 (ix2 f q)) + x2 (ix2 (0 : Fin 1) q)) * x3 (ix2 (0 : Fin 1) q)
        + x4 (ix2 (0 : Fin 1) q) := by
  unfold k0_pay1
  show (matmul (F := Ideal) dot_S512x4096_S4096x40_S512x40_1_0_0_1_n_n none (truncf .bf16 x0 bitsLt_bf16_f32)
            (shapeCast S4096x40 x1 shapeCasts_S4096x40_S4096x40) (constant (F := Ideal) S512x40 .f32 0x00000000#32) (ix2 p q)
          + broadcastTo S512x40 (shapeCast S1x40 x2 shapeCasts_S1x40_S1x40) broadcasts_S1x40_S512x40 (ix2 p q))
        * broadcastTo S512x40 (shapeCast S1x40 x3 shapeCasts_S1x40_S1x40) broadcasts_S1x40_S512x40 (ix2 p q)
      + broadcastTo S512x40 (shapeCast S1x40 x4 shapeCasts_S1x40_S1x40) broadcasts_S1x40_S512x40 (ix2 p q) = _
  rw [shapeCast_self, shapeCast_self, shapeCast_self, shapeCast_self, dot_eq_plain,
    Cert.PlainProduct.matmul_zero_apply, broadcastTo_1b_ab_apply, broadcastTo_1b_ab_apply,
    broadcastTo_1b_ab_apply]
  rfl

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the features' and the output's blocks are block t of the rows; every other
    block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five operands as the region finds them, each at its literal shape. -/
abbrev xarr (c : Dev nD) : FVec Ideal S16384x4096 .f32 := V m c main_arg0
abbrev darr (c : Dev nD) : FVec Ideal S4096x40 .bf16 := V m c main_v54
abbrev barr (c : Dev nD) : FVec Ideal S1x40 .f32 := V m c main_v38
abbrev iarr (c : Dev nD) : FVec Ideal S1x40 .f32 := V m c main_v50
abbrev carr (c : Dev nD) : FVec Ideal S1x40 .f32 := V m c main_v53

/-- The array of satisfactions computed from them. -/
abbrev satV (c : Dev nD) : FVec Ideal S16384x40 .f32 :=
  satOf (xarr m c) (darr m c) (barr m c) (iarr m c) (carr m c)

/-- A window's block at a point reads its array at the block's embedding of the index. -/
theorem iblk0_apply (c : Dev nD) (t : Fin cfg0.N) (y : S512x4096.Idx) :
    iblk m c 0 t y = xarr m c (((cfg0.win 0).blk t).view.emb y) := rfl
theorem iblk1_apply (c : Dev nD) (t : Fin cfg0.N) (y : S4096x40.Idx) :
    iblk m c 1 t y = darr m c (((cfg0.win 1).blk t).view.emb y) := rfl
theorem iblk2_apply (c : Dev nD) (t : Fin cfg0.N) (y : S1x40.Idx) :
    iblk m c 2 t y = barr m c (((cfg0.win 2).blk t).view.emb y) := rfl
theorem iblk3_apply (c : Dev nD) (t : Fin cfg0.N) (y : S1x40.Idx) :
    iblk m c 3 t y = iarr m c (((cfg0.win 3).blk t).view.emb y) := rfl
theorem iblk4_apply (c : Dev nD) (t : Fin cfg0.N) (y : S1x40.Idx) :
    iblk m c 4 t y = carr m c (((cfg0.win 4).blk t).view.emb y) := rfl

/-- At row p, clause q of point t's block the body stores the satisfaction of the array's entry under it. -/
theorem point_eq (c : Dev nD) (t : Fin cfg0.N) (p : Fin 512) (q : Fin 40) :
    k0_pay1 (F := Ideal) (iblk m c 0 t) (iblk m c 1 t) (iblk m c 2 t) (iblk m c 3 t) (iblk m c 4 t) (ix2 p q)
      = satV m c (((cfg0.win 5).blk t).view.emb (ix2 p q)) := by
  obtain ⟨e00, e01, e10, e11, e20, e21, e30, e31, e40, e41, e50, e51⟩ := idx_facts t
  refine (pay_apply (iblk m c 0 t) (iblk m c 1 t) (iblk m c 2 t) (iblk m c 3 t) (iblk m c 4 t) p q).trans ?_
  have h0 : ∀ f : Fin 4096, ((cfg0.win 0).blk t).view.emb (ix2 p f)
      = ix2 ((((cfg0.win 5).blk t).view.emb (ix2 p q)) 0) f := fun f => by
    funext a; apply Fin.ext
    match a with
    | ⟨0, _⟩ => show win0_0.index t (0 : Fin 2) * 512 + 1 * p.val = win0_5.index t (0 : Fin 2) * 512 + 1 * p.val; omega
    | ⟨1, _⟩ => show win0_0.index t (1 : Fin 2) * 4096 + 1 * f.val = f.val; omega
  have h1 : ∀ f : Fin 4096, ((cfg0.win 1).blk t).view.emb (ix2 f q)
      = ix2 f ((((cfg0.win 5).blk t).view.emb (ix2 p q)) 1) := fun f => by
    funext a; apply Fin.ext
    match a with
    | ⟨0, _⟩ => show win0_1.index t (0 : Fin 2) * 4096 + 1 * f.val = f.val; omega
    | ⟨1, _⟩ => show win0_1.index t (1 : Fin 2) * 40 + 1 * q.val = win0_5.index t (1 : Fin 2) * 40 + 1 * q.val; omega
  have h2 : ((cfg0.win 2).blk t).view.emb (ix2 (0 : Fin 1) q)
      = ix2 (0 : Fin 1) ((((cfg0.win 5).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 40 + 1 * q.val = win0_5.index t (1 : Fin 2) * 40 + 1 * q.val; omega
  have h3 : ((cfg0.win 3).blk t).view.emb (ix2 (0 : Fin 1) q)
      = ix2 (0 : Fin 1) ((((cfg0.win 5).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 40 + 1 * q.val = win0_5.index t (1 : Fin 2) * 40 + 1 * q.val; omega
  have h4 : ((cfg0.win 4).blk t).view.emb (ix2 (0 : Fin 1) q)
      = ix2 (0 : Fin 1) ((((cfg0.win 5).blk t).view.emb (ix2 p q)) 1) := by
    funext a; apply Fin.ext
    match a with
    | ⟨0, _⟩ => show win0_4.index t (0 : Fin 2) * 1 + 1 * 0 = 0; omega
    | ⟨1, _⟩ => show win0_4.index t (1 : Fin 2) * 40 + 1 * q.val = win0_5.index t (1 : Fin 2) * 40 + 1 * q.val; omega
  simp only [iblk0_apply, iblk1_apply, iblk2_apply, iblk3_apply, iblk4_apply, h0, h1, h2, h3, h4]
  rfl

/-- What point t writes back is block t of that array. -/
theorem flushed_eq (c : Dev nD) (t : Fin cfg0.N) :
    (dats m 0 c).flushed 5 t = ((cfg0.win 5).blk t).view.read (Elt Ideal) (satV m c) := by
  show (cfg0.win 5).cut (grid0.coords t) ((dats m 0 c).after 5 t) = _
  rw [after0_5]
  unfold out0_5
  rw [View.canon_unit_zero hz]
  simp only [View.ld_unit_zero (S := S512x4096) hz, View.ld_unit_zero (S := S4096x40) hz, View.ld_unit_zero (S := S1x40) hz]
  funext j
  obtain ⟨p, q, rfl⟩ : ∃ (p : Fin 512) (q : Fin 40), j = ix2 p q := ⟨j 0, j 1, eq_ix2 j⟩
  exact point_eq m c t p q

/-- An index of the output is in point t's block iff each coordinate is in the block's range on its axis. -/
theorem mem_blk (t : Fin cfg0.N) (i : S16384x40.Idx) :
    i ∈ ((cfg0.win 5).blk t).view.set ↔ ∀ a : Fin 2, win0_5.index t a * S512x40.size a ≤ (i a).val
      ∧ (i a).val < win0_5.index t a * S512x40.size a + S512x40.size a := by
  show i ∈ ((View.whole main_v55).slice (win0_5.rect t)).set ↔ _
  rw [View.set_slice_whole, Rect.mem_set_unit]
  exact Iff.rfl

/-- Row b of the output lies in the block of point b / 512. -/
theorem cover (i : S16384x40.Idx) : ∃ t : Fin cfg0.N, (cfg0.win 5).flush t = true ∧ i ∈ ((cfg0.win 5).blk t).view.set := by
  have hi0 : (i 0).val < 16384 := (i 0).isLt
  have hi1 : (i 1).val < 40 := (i 1).isLt
  have hN : cfg0.N = 32 := N_0
  refine ⟨⟨(i 0).val / 512, by rw [hN]; omega⟩, flush0_5 _, ?_⟩
  rw [mem_blk]
  obtain ⟨-, -, -, -, -, -, -, -, -, -, e50, e51⟩ := idx_facts ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e50]; show (i 0).val / 512 * 512 ≤ (i 0).val ∧ (i 0).val < (i 0).val / 512 * 512 + 512; omega
  | ⟨1, _⟩ =>
    show win0_5.index _ (1 : Fin 2) * 40 ≤ (i 1).val ∧ (i 1).val < win0_5.index _ (1 : Fin 2) * 40 + 40
    rw [e51]; omega

/-- The output array after the run. -/
theorem final (c : Dev nD) : (dats m 0 c).arrAt 5 cfg0.N = satV m c :=
  (dats m 0 c).arrAt_eq_of_cover 5 (satV m c) (fun t _ => flushed_eq m c t) cover

end Cert.KernelIdeal.SatArray

end
-- ==== Proof.SatLaw.lean ====
/-
  The clause-satisfaction law, on one clause and one batch row.  For a row x of real feature values and two
  real weight columns p (features the clause wants true) and n (features it wants false), with
  cnt = Σ p + Σ n the number of active literals:

    (Σ x·(p − n) + Σ n) · inv + dflt,   inv = 1 / max(cnt, 1) and dflt = 0 if cnt > 0, inv = 0 and dflt = 1 otherwise,

  is the mean  (Σ x·p + Σ (1 − x)·n) / max(cnt, 1)  of the literals' truth values when cnt > 0, and 1 when the clause
  is empty.  The one step that needs real (finite) entries is x·(p − n) + n = x·p + (1 − x)·n, which fails at an
  infinite x; every other step is exact on the extended reals.
-/
import Idealize.ShloMosaic.PureOps.Ideal
import Idealize.ShloMosaic.Lib.ValueIdx

namespace Cert.ClauseSat

open Idealize.ShloMosaic

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of a real and one, taken in the extended reals. -/
theorem max_coe_one (s : ℝ) : max ((s : ℝ) : EReal) 1 = ((max s 1 : ℝ) : EReal) := by
  rw [← EReal.coe_one]
  exact (EReal.coe_strictMono.monotone.map_max).symm

/-- The combined-weight form of a clause's satisfaction equals the mean of its literals (see the header). -/
theorem sat_law {ι : Type} [Fintype ι] (x p n : ι → ℝ) :
    ((∑ i, ((x i : ℝ) : EReal) * (((p i : ℝ) : EReal) - ((n i : ℝ) : EReal))) + (0 + ∑ i, ((n i : ℝ) : EReal)))
        * (if (0 : EReal) < (0 + ∑ i, ((p i : ℝ) : EReal)) + (0 + ∑ i, ((n i : ℝ) : EReal))
            then Ideal.div 1 (max ((0 + ∑ i, ((p i : ℝ) : EReal)) + (0 + ∑ i, ((n i : ℝ) : EReal))) 1) else 0)
        + (if (0 : EReal) < (0 + ∑ i, ((p i : ℝ) : EReal)) + (0 + ∑ i, ((n i : ℝ) : EReal)) then 0 else 1)
      = if (0 : EReal) < (0 + ∑ i, ((p i : ℝ) : EReal)) + (0 + ∑ i, ((n i : ℝ) : EReal)) then
          Ideal.div ((∑ i, ((x i : ℝ) : EReal) * ((p i : ℝ) : EReal)) + ∑ i, (1 - ((x i : ℝ) : EReal)) * ((n i : ℝ) : EReal))
            (max ((0 + ∑ i, ((p i : ℝ) : EReal)) + (0 + ∑ i, ((n i : ℝ) : EReal))) 1)
        else 1 := by
  have hA : (∑ i, ((x i : ℝ) : EReal) * (((p i : ℝ) : EReal) - ((n i : ℝ) : EReal)))
      = ((∑ i, x i * (p i - n i) : ℝ) : EReal) := by
    rw [← coe_sum]; exact Finset.sum_congr rfl fun i _ => by rw [EReal.coe_mul, EReal.coe_sub]
  have hC : (∑ i, ((x i : ℝ) : EReal) * ((p i : ℝ) : EReal)) = ((∑ i, x i * p i : ℝ) : EReal) := by
    rw [← coe_sum]; exact Finset.sum_congr rfl fun i _ => by rw [EReal.coe_mul]
  have hD : (∑ i, (1 - ((x i : ℝ) : EReal)) * ((n i : ℝ) : EReal)) = ((∑ i, (1 - x i) * n i : ℝ) : EReal) := by
    rw [← coe_sum]; exact Finset.sum_congr rfl fun i _ => by rw [EReal.coe_mul, EReal.coe_sub, EReal.coe_one]
  rw [hA, hC, hD, zero_add, zero_add, coe_sum, coe_sum, ← EReal.coe_add (∑ i, p i), max_coe_one]
  have hm : max ((∑ i, p i) + ∑ i, n i) 1 ≠ 0 := ne_of_gt (lt_of_lt_of_le one_pos (le_max_right _ _))
  by_cases h : (0 : ℝ) < (∑ i, p i) + ∑ i, n i
  · have h' : (0 : EReal) < (((∑ i, p i) + ∑ i, n i : ℝ) : EReal) := EReal.coe_pos.mpr h
    rw [if_pos h', if_pos h', if_pos h', Ideal.div_coe hm, Ideal.div_coe hm, one_mul, add_zero,
      ← EReal.coe_add, ← EReal.coe_add]
    congr 2
    simp only [mul_sub, sub_mul, one_mul, Finset.sum_sub_distrib]
    ring
  · have h' : ¬ (0 : EReal) < (((∑ i, p i) + ∑ i, n i : ℝ) : EReal) := fun c => h (EReal.coe_pos.mp c)
    rw [if_neg h', if_neg h', if_neg h', mul_zero, zero_add]

/-- A selection on a strict comparison of extended reals is an if-then-else. -/
theorem select_ogt {α : Type} (x y : EReal) (a b : α) :
    Scalar.select (Ideal.cmp .ogt x y) a b = if y < x then a else b := by
  unfold Ideal.cmp
  by_cases h : y < x
  · rw [if_pos h]; simp only [h, decide_true]; exact ValueIdx.select_one a b
  · rw [if_neg h]; simp only [h, decide_false]; exact ValueIdx.select_zero a b

end Cert.ClauseSat
-- ==== Proof.KernelRows.lean ====
/-
  The four small operands the kernel's host code prepares from the two 0/1 weight matrices P (features a clause wants
  true) and N (features it wants false), read entry by entry over the extended reals:

    D(f, c)     = P(f, c) − N(f, c)                                   the combined weight,
    bias(0, c)  = 0 + Σ_f N(f, c)                                     the negative literals' constant part,
    cnt(0, c)   = (0 + Σ_f P(f, c)) + (0 + Σ_f N(f, c))               the number of active literals,
    inv(0, c)   = 1 / max(cnt, 1) if cnt > 0, else 0,
    dflt(0, c)  = 0 if cnt > 0, else 1.
-/
import proofs.«107121_j39290360823856_1_alg».proof.Proof.Gen.KernelIdeal
import proofs.«107121_j39290360823856_1_alg».proof.Proof.SatLaw
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Rows

open Cert.KernelIdeal Cert.KernelIdeal.Facts₀ Idealize.ShloMosaic Idealize.ShloMosaic.ValueIdx

section Defs
variable {F : FTy → Type} [FloatOps F]

/-- The scalar constants 0 and 1 as the host code spells them. -/
abbrev c0 : FVec F S_ .f32 := constant S_ .f32 0x00000000#32
abbrev c1 : FVec F S_ .f32 := constant S_ .f32 0x3F800000#32

/-- A matrix's column sums, kept as a row. -/
def colSumRow (A : FVec F S4096x40 .f32) : FVec F S1x40 .f32 :=
  broadcastInDim S1x40 ![1] bcast_S40_S1x40_1 (Host.reduceAdd A (c0 (F := F)) reducesTo_S4096x40_S40_d0 h_S_)

/-- The combined weight, the count row, the inverse-count row and the default row, as the host code computes them. -/
def dMat (P N : FVec F S4096x40 .f32) : FVec F S4096x40 .bf16 := truncf .bf16 (subf P N) bitsLt_bf16_f32
def cntRow (P N : FVec F S4096x40 .f32) : FVec F S1x40 .f32 := addf (colSumRow P) (colSumRow N)
def invRow (P N : FVec F S4096x40 .f32) : FVec F S1x40 .f32 :=
  select (cmpf .ogt (cntRow P N) (broadcastInDim S1x40 ![] bcast_S_S1x40 (c0 (F := F))))
    (Host.divf (broadcastInDim S1x40 ![] bcast_S_S1x40 (c1 (F := F)))
      (maximumf (cntRow P N) (broadcastInDim S1x40 ![] bcast_S_S1x40 (c1 (F := F)))))
    (broadcastInDim S1x40 ![] bcast_S_S1x40 (id (c0 (F := F))))
def dfltRow (P N : FVec F S4096x40 .f32) : FVec F S1x40 .f32 :=
  select (cmpf .ogt (cntRow P N) (broadcastInDim S1x40 ![] bcast_S_S1x40 (c0 (F := F))))
    (broadcastInDim S1x40 ![] bcast_S_S1x40 (c0 (F := F))) (broadcastInDim S1x40 ![] bcast_S_S1x40 (c1 (F := F)))

/-- The per-action score: the 40 clause satisfactions of a row regrouped as 4 actions × 10 clauses and summed over the
    clauses of each action (the last host operations of both programs). -/
def actionSum (y : FVec F S16384x40 .f32) : FVec F S16384x4 .f32 :=
  Host.reduceAdd (shapeCast S16384x4x10 y shapeCasts_S16384x40_S16384x4x10) (c0 (F := F)) reducesTo_S16384x4x10_S16384x4_d2 h_S_

end Defs

theorem c0_apply (i : S_.Idx) : c0 (F := Ideal) i = 0 := Ideal.ofBits_zero_f32
theorem c1_apply (i : S_.Idx) : c1 (F := Ideal) i = 1 := Ideal.ofBits_one_f32

theorem dMat_apply (P N : FVec Ideal S4096x40 .f32) (f : Fin 4096) (q : Fin 40) :
    dMat P N (ix2 f q) = P (ix2 f q) - N (ix2 f q) := rfl

/-- A column sum at clause q: zero plus the sum down the column. -/
theorem colSumRow_apply (A : FVec Ideal S4096x40 .f32) (q : Fin 40) :
    colSumRow A (ix2 (0 : Fin 1) q) = 0 + ∑ f : Fin 4096, A (ix2 f q) := by
  unfold colSumRow
  rw [broadcastInDim_apply _ bcast_S40_S1x40_1 _ (ix2 (0 : Fin 1) q) (ix1 q) (fun a => match a with
    | ⟨0, _⟩ => by show q.val = if (40 : Nat) = 1 then 0 else q.val; rw [if_neg (by decide)])]
  simp only [Host.reduceAdd, Ideal.hostReduceAdd_def]
  rw [Ideal.hostReduceAdd_single reducesTo_S4096x40_S40_d0 (by decide)]
  refine congrArg₂ (· + ·) Ideal.ofBits_zero_f32 (Finset.sum_congr rfl fun k _ => ?_)
  exact congrArg A (funext fun a => Fin.ext (by match a with | ⟨0, _⟩ => rfl | ⟨1, _⟩ => rfl))

theorem cntRow_apply (P N : FVec Ideal S4096x40 .f32) (q : Fin 40) :
    cntRow P N (ix2 (0 : Fin 1) q) = (0 + ∑ f : Fin 4096, P (ix2 f q)) + (0 + ∑ f : Fin 4096, N (ix2 f q)) := by
  unfold cntRow
  rw [addf_apply, colSumRow_apply, colSumRow_apply]

theorem invRow_apply (P N : FVec Ideal S4096x40 .f32) (q : Fin 40) :
    invRow P N (ix2 (0 : Fin 1) q)
      = if (0 : EReal) < cntRow P N (ix2 (0 : Fin 1) q) then Ideal.div 1 (max (cntRow P N (ix2 (0 : Fin 1) q)) 1) else 0 := by
  unfold invRow
  rw [select_apply, cmpf_apply, Ideal.cmpf_def, hostDivf_apply, maximumf_apply, broadcastInDim_scalar_apply,
    broadcastInDim_scalar_apply, broadcastInDim_scalar_apply, Cert.ClauseSat.select_ogt]
  show (if c0 (F := Ideal) ix0 < _ then Ideal.div (c1 (F := Ideal) ix0) (max _ (c1 (F := Ideal) ix0)) else c0 (F := Ideal) ix0) = _
  rw [c0_apply, c1_apply]

theorem dfltRow_apply (P N : FVec Ideal S4096x40 .f32) (q : Fin 40) :
    dfltRow P N (ix2 (0 : Fin 1) q) = if (0 : EReal) < cntRow P N (ix2 (0 : Fin 1) q) then 0 else 1 := by
  unfold dfltRow
  rw [select_apply, cmpf_apply, Ideal.cmpf_def, broadcastInDim_scalar_apply, broadcastInDim_scalar_apply,
    Cert.ClauseSat.select_ogt, c0_apply, c1_apply]

end Cert.KernelIdeal.Rows

end
-- ==== Proof.KernelHost.lean ====
/-
  What the region finds in its four small operands.  The host code before the region computes the two 0/1 weight matrices
  P and N from the four parameter arrays (the same thirty-six operations the reference applies, so they are named here by
  the reference's own stages), and from them the combined weight, the bias row, the inverse-count row and the default row.
  Each equation is between the host operations' composed term and the named form; it holds at any float family.
-/
import proofs.«107121_j39290360823856_1_alg».proof.Proof.Gen.KernelIdeal.Frame
import proofs.«107121_j39290360823856_1_alg».proof.Proof.KernelRows
import proofs.«107121_j39290360823856_1_alg».proof.Proof.RefRead
import Idealize.ShloMosaic.Lib.StableHlo.Run

noncomputable section

namespace Cert.KernelIdeal.HostValues

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

/-- The weight matrix of the features a clause wants true … -/
abbrev posK (c : Dev nD) : FVec F S4096x40 .f32 :=
  Cert.ReferenceIdeal.ReadP.val_main_v30 (F := F) (m ((c.tc : Thread nD τ).loc main_arg1)) (m ((c.tc : Thread nD τ).loc main_arg2))
    (m ((c.tc : Thread nD τ).loc main_arg3)) (m ((c.tc : Thread nD τ).loc main_arg4))
/-- … and of those it wants false. -/
abbrev negK (c : Dev nD) : FVec F S4096x40 .f32 :=
  Cert.ReferenceIdeal.ReadP.val_main_v35 (F := F) (m ((c.tc : Thread nD τ).loc main_arg1)) (m ((c.tc : Thread nD τ).loc main_arg2))
    (m ((c.tc : Thread nD τ).loc main_arg3)) (m ((c.tc : Thread nD τ).loc main_arg4))

set_option maxRecDepth 8192 in
set_option maxHeartbeats 4000000 in
/-- The combined weight matrix. -/
theorem V_weights (c : Dev nD) : (V m c main_v54 : FVec F S4096x40 .bf16) = Rows.dMat (posK m c) (negK m c) := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 4000000 in
/-- The bias row: the column sums of N. -/
theorem V_bias (c : Dev nD) : (V m c main_v38 : FVec F S1x40 .f32) = Rows.colSumRow (negK m c) := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 4000000 in
/-- The inverse-count row. -/
theorem V_inv (c : Dev nD) : (V m c main_v50 : FVec F S1x40 .f32) = Rows.invRow (posK m c) (negK m c) := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 4000000 in
/-- The default row. -/
theorem V_dflt (c : Dev nD) : (V m c main_v53 : FVec F S1x40 .f32) = Rows.dfltRow (posK m c) (negK m c) := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.HostValues

end
-- ==== Proof.KernelValue.lean ====
/-
  The idealized kernel's run, with its result named.  After the region the output array holds the clause satisfactions
  (one per batch row and clause) computed from the features, the combined weights and the three rows; the two host
  operations after the region regroup each row's 40 satisfactions as 4 actions × 10 clauses and sum over the clauses.
-/
import proofs.«107121_j39290360823856_1_alg».proof.Proof.Gen.KernelIdeal.Frame
import proofs.«107121_j39290360823856_1_alg».proof.Proof.KernelArray
import proofs.«107121_j39290360823856_1_alg».proof.Proof.KernelRows
import proofs.«107121_j39290360823856_1_alg».proof.Proof.KernelHost
import Idealize.ShloMosaic.Lib.StableHlo.Run

noncomputable section

namespace Cert.KernelIdeal.SatValue

open Cert.KernelIdeal Cert.KernelIdeal.Gen Idealize.ShloMosaic Idealize.ShloMosaic.TcCoe Idealize.SL.Sem
open Idealize.ShloMosaic.StableHlo Idealize.ShloMosaic.Pipeline

variable (m : (ℓ : Loc nD τ sig) → Buf (Elt Ideal) ℓ) (ρ : Dev nD → PrngReg)

/-- The clause satisfactions as a function of the argument arrays. -/
def sat (c : Dev nD) : FVec Ideal S16384x40 .f32 :=
  SatArray.satOf (m ((c.tc : Thread nD τ).loc main_arg0)) (Rows.dMat (HostValues.posK m c) (HostValues.negK m c))
    (Rows.colSumRow (HostValues.negK m c)) (Rows.invRow (HostValues.posK m c) (HostValues.negK m c))
    (Rows.dfltRow (HostValues.posK m c) (HostValues.negK m c))

/-- The action scores: the kernel's result. -/
def result (c : Dev nD) : FVec Ideal S16384x4 .f32 := Rows.actionSum (sat m c)

/-- The array the region leaves is that function of the arguments: each operand as the host code before the region made it. -/
theorem satV_eq (c : Dev nD) : SatArray.satV m c = sat m c := by
  show SatArray.satOf (V m c main_arg0) (V m c main_v54) (V m c main_v38) (V m c main_v50) (V m c main_v53) = _
  rw [V_main_arg0, HostValues.V_weights, HostValues.V_bias, HostValues.V_inv, HostValues.V_dflt]
  rfl

/-- The result buffer after the two host operations that follow the region. -/
theorem tail_eq (c : Dev nD) :
    Pipeline.afterTail₀ cfgs (dats m) 0 (V0 m) [hostOps1] c main_v57 = Rows.actionSum (SatArray.satV m c) := by
  unfold Pipeline.afterTail₀
  show StableHlo.after hostOps1 _ (Proc.devRef .tc main_v57) = _
  after_results
  have hw : withArrays (cfgs 0).spec c (V0 m c) (fun w => (dats m 0 c).arrAt w (cfgs 0).N) (Proc.devRef .tc main_v55)
      = SatArray.satV m c :=
    (Pipeline.withArrays_arr spec0 launch0.win.arr_inj c (V0 m c) (fun w => (dats m 0 c).arrAt w cfg0.N) 5).trans
      (SatArray.final m c)
  rw [hw]
  rfl

/-- Every weakly fair execution of the idealized kernel program terminates with the result buffer at the action scores
    and the arguments unchanged. -/
theorem run : θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v57 (Pipeline.mem_restRefs_of main_v57 (by decide) (by decide))).trans
        ((tail_eq m c).trans (congrArg Rows.actionSum (satV_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.SatValue

end
-- ==== Proof.RefSat.lean ====
/-
  The reference's clause satisfactions, read at an entry.  With P, N the two 0/1 weight matrices (the reference's stages
  30 and 35) and cnt(c) = (0 + Σ_f P(f, c)) + (0 + Σ_f N(f, c)), entry (b, c) of the 16384×40 array before the per-action
  sums is

      (Σ_f X(b, f)·P(f, c) + Σ_f (1 − X(b, f))·N(f, c)) / max(cnt(c), 1)   if cnt(c) > 0,   and 1 otherwise.
-/
import proofs.«107121_j39290360823856_1_alg».proof.Proof.RefRead
import proofs.«107121_j39290360823856_1_alg».proof.Proof.SatLaw
import Idealize.ShloMosaic.Lib.IdealHost

noncomputable section

namespace Cert.ReferenceIdeal.SatRead

open Cert.ReferenceIdeal Cert.ReferenceIdeal.ReadP Idealize.ShloMosaic Idealize.ShloMosaic.ValueIdx

variable (x0 : FVec Ideal S16384x4096 .f32) (x1 x2 x3 : FVec Ideal S4096x40 .f32) (x4 : FVec Ideal S_ .f32)

/-- The number of active literals of clause q. -/
theorem cnt_apply (q : Fin 40) :
    val_main_v43 (F := Ideal) x1 x2 x3 x4 (ix1 q)
      = (0 + ∑ f : Fin 4096, val_main_v30 (F := Ideal) x1 x2 x3 x4 (ix2 f q))
        + (0 + ∑ f : Fin 4096, val_main_v35 (F := Ideal) x1 x2 x3 x4 (ix2 f q)) := by
  have e1 : ∀ k : Fin 4096, idx_main_v41 (ix1 q) k = ix2 k q := fun k =>
    funext fun a => Fin.ext (by match a with | ⟨0, _⟩ => rfl | ⟨1, _⟩ => rfl)
  have e2 : ∀ k : Fin 4096, idx_main_v42 (ix1 q) k = ix2 k q := fun k =>
    funext fun a => Fin.ext (by match a with | ⟨0, _⟩ => rfl | ⟨1, _⟩ => rfl)
  rw [val_main_v43_apply, val_main_v41_apply, val_main_v42_apply, val_main_cst_10_apply, val_main_cst_11_apply]
  simp only [e1, e2, Ideal.addf_def, Ideal.ofBits_def, Ideal.ofBits_zero_f32]

/-- The satisfaction of clause q on batch row b. -/
theorem sat_apply (b : Fin 16384) (q : Fin 40) :
    val_main_v51 (F := Ideal) x0 x1 x2 x3 x4 (ix2 b q)
      = if (0 : EReal) < val_main_v43 (F := Ideal) x1 x2 x3 x4 (ix1 q) then
          Ideal.div ((∑ f : Fin 4096, x0 (ix2 b f) * val_main_v30 (F := Ideal) x1 x2 x3 x4 (ix2 f q))
              + ∑ f : Fin 4096, (1 - x0 (ix2 b f)) * val_main_v35 (F := Ideal) x1 x2 x3 x4 (ix2 f q))
            (max (val_main_v43 (F := Ideal) x1 x2 x3 x4 (ix1 q)) 1)
        else 1 := by
  have j1 : idx_main_call0_v1 (ix2 b q) = ix1 q := funext fun a => Fin.ext (by match a with | ⟨0, _⟩ => rfl)
  have j2 : idx_main_v48 (idx_main_v49 (ix2 b q)) = ix1 q := funext fun a => Fin.ext (by match a with | ⟨0, _⟩ => rfl)
  have l36 : ∀ k : Fin 4096, lidx_main_v36 (ix2 b q) k = ix2 b k := fun k =>
    funext fun a => Fin.ext (by match a with | ⟨0, _⟩ => rfl | ⟨1, _⟩ => rfl)
  have r36 : ∀ k : Fin 4096, ridx_main_v36 (ix2 b q) k = ix2 k q := fun k =>
    funext fun a => Fin.ext (by match a with | ⟨0, _⟩ => rfl | ⟨1, _⟩ => rfl)
  have l39 : ∀ k : Fin 4096, lidx_main_v39 (ix2 b q) k = ix2 b k := fun k =>
    funext fun a => Fin.ext (by match a with | ⟨0, _⟩ => rfl | ⟨1, _⟩ => rfl)
  have r39 : ∀ k : Fin 4096, ridx_main_v39 (ix2 b q) k = ix2 k q := fun k =>
    funext fun a => Fin.ext (by match a with | ⟨0, _⟩ => rfl | ⟨1, _⟩ => rfl)
  rw [val_main_v51_apply, val_main_call0_v1_apply, val_main_v45_apply, val_main_v44_apply, val_main_cst_12_apply,
    val_main_v50_apply, val_main_v40_apply, val_main_v36_apply, val_main_v39_apply, val_main_v49_apply, val_main_v48_apply,
    val_main_v47_apply, val_main_v46_apply, val_main_cst_13_apply, val_main_call0_v2_apply, val_main_call0_v0_apply,
    val_main_cst_14_apply, j1, j2]
  simp only [val_main_v38_apply, val_main_v37_apply, val_main_cst_9_apply, l36, r36, l39, r39, Ideal.cmpf_def,
    Ideal.hostDivf_def, Ideal.addf_def, Ideal.subf_def, Ideal.maximumf_def, Ideal.ofBits_def, Ideal.ofBits_zero_f32,
    Ideal.ofBits_one_f32]
  exact Cert.ClauseSat.select_ogt _ _ _ _

end Cert.ReferenceIdeal.SatRead

end
-- ==== Proof.Bridge.lean ====
/-
  The bridge: on real features the kernel's clause satisfactions are the reference's.  Entry (b, c) of the kernel's array
  is (Σ_f X(b,f)·(P − N)(f,c) + Σ_f N(f,c)) · inv(c) + dflt(c); the reference's is the mean of the literals' truth values
  over max(cnt(c), 1) when cnt(c) > 0 and 1 otherwise.  The features' entries are real by the precondition, and the entries
  of P and N are 0/1 words read as reals, so the clause law applies row by row.
-/
import proofs.«107121_j39290360823856_1_alg».proof.Proof.KernelArray
import proofs.«107121_j39290360823856_1_alg».proof.Proof.KernelRows
import proofs.«107121_j39290360823856_1_alg».proof.Proof.RefSat
import proofs.«107121_j39290360823856_1_alg».proof.Proof.SatLaw

noncomputable section

namespace Cert.ClauseSat.Bridge

open Idealize.ShloMosaic Idealize.ShloMosaic.ValueIdx
open Cert.KernelIdeal (S16384x4096 S4096x40 S_ S16384x40 S1x40 S16384x4)
open Cert.ReferenceIdeal.ReadP (val_main_v29 val_main_v30 val_main_v34 val_main_v35 val_main_v43 val_main_v51 val_main_v53)

variable (x0 : FVec Ideal S16384x4096 .f32) (x1 x2 x3 : FVec Ideal S4096x40 .f32) (x4 : FVec Ideal S_ .f32)

/-- The two arrays of clause satisfactions agree when the features are real. -/
theorem sat_eq (hx : ∀ i : S16384x4096.Idx, ∃ r : ℝ, x0 i = (r : EReal)) :
    Cert.KernelIdeal.SatArray.satOf x0
        (Cert.KernelIdeal.Rows.dMat (F := Ideal) (val_main_v30 (F := Ideal) x1 x2 x3 x4) (val_main_v35 (F := Ideal) x1 x2 x3 x4))
        (Cert.KernelIdeal.Rows.colSumRow (F := Ideal) (val_main_v35 (F := Ideal) x1 x2 x3 x4))
        (Cert.KernelIdeal.Rows.invRow (F := Ideal) (val_main_v30 (F := Ideal) x1 x2 x3 x4) (val_main_v35 (F := Ideal) x1 x2 x3 x4))
        (Cert.KernelIdeal.Rows.dfltRow (F := Ideal) (val_main_v30 (F := Ideal) x1 x2 x3 x4) (val_main_v35 (F := Ideal) x1 x2 x3 x4))
      = val_main_v51 (F := Ideal) x0 x1 x2 x3 x4 := by
  funext i
  obtain ⟨b, q, rfl⟩ : ∃ (b : Fin 16384) (q : Fin 40), i = ix2 b q := ⟨i 0, i 1, eq_ix2 i⟩
  rw [Cert.ReferenceIdeal.SatRead.sat_apply, Cert.ReferenceIdeal.SatRead.cnt_apply]
  show ((∑ f : Fin 4096, x0 (ix2 b f)
            * Cert.KernelIdeal.Rows.dMat (F := Ideal) (val_main_v30 (F := Ideal) x1 x2 x3 x4) (val_main_v35 (F := Ideal) x1 x2 x3 x4) (ix2 f q))
          + Cert.KernelIdeal.Rows.colSumRow (F := Ideal) (val_main_v35 (F := Ideal) x1 x2 x3 x4) (ix2 (0 : Fin 1) q))
        * Cert.KernelIdeal.Rows.invRow (F := Ideal) (val_main_v30 (F := Ideal) x1 x2 x3 x4) (val_main_v35 (F := Ideal) x1 x2 x3 x4) (ix2 (0 : Fin 1) q)
      + Cert.KernelIdeal.Rows.dfltRow (F := Ideal) (val_main_v30 (F := Ideal) x1 x2 x3 x4) (val_main_v35 (F := Ideal) x1 x2 x3 x4) (ix2 (0 : Fin 1) q) = _
  rw [Cert.KernelIdeal.Rows.colSumRow_apply, Cert.KernelIdeal.Rows.invRow_apply, Cert.KernelIdeal.Rows.dfltRow_apply,
    Cert.KernelIdeal.Rows.cntRow_apply]
  simp only [Cert.KernelIdeal.Rows.dMat_apply]
  choose xr hxr using fun f : Fin 4096 => hx (ix2 b f)
  have hP : ∀ f : Fin 4096, val_main_v30 (F := Ideal) x1 x2 x3 x4 (ix2 f q)
      = (((val_main_v29 (F := Ideal) x1 x2 x3 x4 (ix2 f q)).toNat : ℝ) : EReal) := fun f => rfl
  have hN : ∀ f : Fin 4096, val_main_v35 (F := Ideal) x1 x2 x3 x4 (ix2 f q)
      = (((val_main_v34 (F := Ideal) x1 x2 x3 x4 (ix2 f q)).toNat : ℝ) : EReal) := fun f => rfl
  simp only [hxr, hP, hN]
  exact Cert.ClauseSat.sat_law xr _ _

/-- The reference's result is the per-action sum of its clause satisfactions. -/
theorem ref_result :
    val_main_v53 (F := Ideal) x0 x1 x2 x3 x4 = Cert.KernelIdeal.Rows.actionSum (F := Ideal) (val_main_v51 (F := Ideal) x0 x1 x2 x3 x4) := rfl

end Cert.ClauseSat.Bridge

end
-- ==== Proof.Finite.lean ====
/-
  What the precondition gives: every entry of the features array is a real number.  The printed predicate is the
  conjunction of five all-reductions, one per input, of |entry| < +∞; the first conjunct, read at an index, says the
  features entry there is neither +∞ nor −∞.
-/
import proofs.«107121_j39290360823856_1_alg».proof.Pre_finite_inputs
import Idealize.ShloMosaic.Lib.ReduceAll
import Idealize.ShloMosaic.Lib.ValueIdx
import Idealize.ShloMosaic.PureOps.Ideal.Laws

namespace Cert.ClauseSat.Finite

open Idealize.ShloMosaic Cert.Pre_finite_inputs

instance : Subsingleton S_.Idx := ⟨fun a b => funext fun d => d.elim0⟩

/-- The pattern 0x7F800000 is +∞. -/
theorem ofBits_inf : Ideal.ofBits .f32 0x7F800000#32 = ⊤ := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  induction x using EReal.rec with
  | bot => simp at h
  | coe r => exact ⟨r, rfl⟩
  | top => simp at h

/-- Under the precondition the features are real, entry by entry. -/
theorem features_real [Facts] (x0 : FVec Ideal S16384x4096 .f32) (x1 x2 x3 : FVec Ideal S4096x40 .f32) (x4 : FVec Ideal S_ .f32)
    (h : fn (F := Ideal) x0 x1 x2 x3 x4 = fun _ => 1#1) (i : S16384x4096.Idx) : ∃ r : ℝ, x0 i = (r : EReal) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  exact real_of_abs_lt _ (Host.reduce_andi_all _ _ _ _ _ h4 i)

end Cert.ClauseSat.Finite
-- ==== Proof.lean ====
/-
  Clause satisfaction scores: a Pallas kernel against its jnp reference, equal over the extended reals.

  Both programs turn four parameter arrays into two 0/1 weight matrices P (features a clause wants true) and N (features
  it wants false) by the same thirty-six host operations.  The reference then takes, for batch row b and clause c, the mean

      (Σ_f X(b,f)·P(f,c) + Σ_f (1 − X(b,f))·N(f,c)) / max(cnt(c), 1),   cnt(c) = Σ_f P(f,c) + Σ_f N(f,c),

  or 1 when cnt(c) = 0, and sums each row's 40 clauses in 4 groups of 10.  The kernel multiplies the features once by the
  combined weight P − N, adds the column sums of N, scales by 1/max(cnt, 1) (or 0) and adds 0 (or 1), 512 batch rows per
  grid point, and the same regrouping sum follows.  The two agree because X·(P − N) + N = X·P + (1 − X)·N entry by entry,
  which needs the features real: that is the one use of the precondition.  The frames of the two kernel programs are the
  generated ones; the reference's frame is its run with the result dropped; the idealization rewrote nothing.
-/
import proofs.«107121_j39290360823856_1_alg».proof.Defs
import proofs.«107121_j39290360823856_1_alg».proof.Proof.Gen.Kernel
import proofs.«107121_j39290360823856_1_alg».proof.Proof.Gen.Kernel.Skeleton
import proofs.«107121_j39290360823856_1_alg».proof.Proof.Gen.Kernel.Launch
import proofs.«107121_j39290360823856_1_alg».proof.Proof.Gen.Kernel.Points
import proofs.«107121_j39290360823856_1_alg».proof.Proof.Gen.Kernel.Frame
import proofs.«107121_j39290360823856_1_alg».proof.Proof.Gen.KernelIdeal
import proofs.«107121_j39290360823856_1_alg».proof.Proof.Gen.KernelIdeal.Skeleton
import proofs.«107121_j39290360823856_1_alg».proof.Proof.Gen.KernelIdeal.Launch
import proofs.«107121_j39290360823856_1_alg».proof.Proof.Gen.KernelIdeal.Points
import proofs.«107121_j39290360823856_1_alg».proof.Proof.Gen.KernelIdeal.Frame
import proofs.«107121_j39290360823856_1_alg».proof.Proof.Gen.ReferenceIdeal
import proofs.«107121_j39290360823856_1_alg».proof.Proof.Gen.Pre_finite_inputs
import proofs.«107121_j39290360823856_1_alg».proof.Proof.RefRun
import proofs.«107121_j39290360823856_1_alg».proof.Proof.RefRead
import proofs.«107121_j39290360823856_1_alg».proof.Proof.KernelValue
import proofs.«107121_j39290360823856_1_alg».proof.Proof.Bridge
import proofs.«107121_j39290360823856_1_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories that agree on the arguments both programs end with the action scores: the kernel's are the per-action
    sums of its clause satisfactions, the reference's of its own, and the two arrays of satisfactions are equal on real
    features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.SatValue.result m c, Cert.KernelIdeal.SatValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2.1, (hagree c).2.2.1, (hagree c).2.2.2.1,
    (hagree c).2.2.2.2]
  exact (Cert.ClauseSat.Bridge.ref_result _ _ _ _ _).trans
    (congrArg Cert.KernelIdeal.Rows.actionSum
      (Cert.ClauseSat.Bridge.sat_eq _ _ _ _ _ (Cert.ClauseSat.Finite.features_real _ _ _ _ _ (hpre c))).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
